-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S16x4096 .f32) (main_arg4 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S16384x4096 : Shape := ⟨2, ![16384, 4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩
abbrev S16x1024 : Shape := ⟨2, ![16, 1024]⟩
abbrev S1024x16 : Shape := ⟨2, ![1024, 16]⟩
abbrev S512x16 : Shape := ⟨2, ![512, 16]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S4x4096x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S16x1024, .f32⟩
  | .local _ .vmem, ⟨7, _⟩ => ⟨S16x1024, .f32⟩
  | .local _ .vmem, ⟨8, _⟩ => ⟨S1024x16, .f32⟩
  | .local _ .vmem, ⟨9, _⟩ => ⟨S1024x16, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x16, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x4096x4096_S16384x4096 : S4x4096x4096.ShapeCasts S16384x4096
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x16_S512x16_0_0 : ∀ a, (![0, 0] : Fin 2 → Nat) a + S512x16.size a ≤ S512x16.size a
  h_S512x16 : 0 < S512x16.numel
  shapeCasts_S512x16_S512x16 : S512x16.ShapeCasts S512x16
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S16x1024_S16x1024_0_0 : ∀ a, (![0, 0] : Fin 2 → Nat) a + S16x1024.size a ≤ S16x1024.size a
  h_S16x1024 : 0 < S16x1024.numel
  inb_S1024x16_S1024x16_0_0 : ∀ a, (![0, 0] : Fin 2 → Nat) a + S1024x16.size a ≤ S1024x16.size a
  h_S1024x16 : 0 < S1024x16.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x4096_S4x4096x4096 : S16384x4096.ShapeCasts S4x4096x4096
  dot_S512x1024_S1024x1024_S512x1024_1_1_0_0_n_n_wf : DotDims.WF S512x1024 S1024x1024 S512x1024 [1] [1] [0] [0] [] []
  dot_S512x1024_S16x1024_S512x16_1_1_0_0_n_n_wf : DotDims.WF S512x1024 S16x1024 S512x16 [1] [1] [0] [0] [] []
  dot_S512x16_S1024x16_S512x1024_1_1_0_0_n_n_wf : DotDims.WF S512x16 S1024x16 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x4096.size a
  hwx0_0 : ∀ i : grid0.Coords, EltTy.bits .f32 = 32 ∨ (Rect.block (s := S16384x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .f32 = 32 ∨ (Rect.block (s := S16x4096) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S4096x16.size a
  hwx0_4 : ∀ i : grid0.Coords, EltTy.bits .f32 = 32 ∨ (Rect.block (s := S4096x16) S1024x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x4096.size a
  hwx0_5 : ∀ i : grid0.Coords, EltTy.bits .f32 = 32 ∨ (Rect.block (s := S16384x4096) S512x1024.size (cc0_transform_5 i) (hinb0_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S16x1024_S512x16_1_1_0_0_n_n : DotDims S512x1024 S16x1024 S512x16 where
  lhsContracting := [1]
  rhsContracting := [1]
  lhsNonContracting := [0]
  rhsNonContracting := [0]
  lhsBatch := []
  rhsBatch := []
  wf := dot_S512x1024_S16x1024_S512x16_1_1_0_0_n_n_wf
def dot_S512x16_S1024x16_S512x1024_1_1_0_0_n_n : DotDims S512x16 S1024x16 S512x1024 where
  lhsContracting := [1]
  rhsContracting := [1]
  lhsNonContracting := [0]
  rhsNonContracting := [0]
  lhsBatch := []
  rhsBatch := []
  wf := dot_S512x16_S1024x16_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S16x4096_S4x4096x16_2_1_01_0_n_n_wf : DotDims.WF S4x4096x4096 S16x4096 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.Pieces.lean ====
/-
  What one run of the kernel's body leaves behind, case by case, as plain terms of what it read.

  The body keeps two accumulators between the steps of the shared axis: acc (512 × 1024) for the base product and
  accA (512 × 16) for the product with the low-rank factor A.
  * At the first step of the shared axis (case A) both are reset to zero and then updated: acc := 0 + x·wᵀ,
    accA := 0 + x·Aᵀ.
  * At a middle step (case B) they are updated from what the step before left: acc := acc + x·wᵀ, accA := accA + x·Aᵀ.
  * At the last step (case C) they are updated in the same way, and the output block is written from the updated
    accumulators: (acc + bias) + 1 · (accA · Bᵀ).
-/
import proofs.«163985_j67130338836603_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (arg3 : Memref sig .tc .vmem S512x1024 .f32) (harg3 : arg3.IsWhole)
  (arg4 : Memref sig .tc .vmem S1024x1024 .f32) (harg4 : arg4.IsWhole)
  (arg5 : Memref sig .tc .vmem S1x1024 .f32) (harg5 : arg5.IsWhole)
  (arg6 : Memref sig .tc .vmem S16x1024 .f32) (harg6 : arg6.IsWhole)
  (arg7 : Memref sig .tc .vmem S1024x16 .f32) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S512x16 .f32) (harg10 : arg10.IsWhole)

/-- The first step of the shared axis leaves 0 + x·wᵀ in the base accumulator. -/
theorem acc_A (hc0 : cond0_0 i) (hc1 : ¬cond0_1 i)
    (x0 : Vec F S512x1024 .f32) (x1 : Vec F S1024x1024 .f32) (x2 : Vec F S1x1024 .f32) (x3 : Vec F S16x1024 .f32)
    (x4 : Vec F S1024x16 .f32) :
    sout0_A_0 c i arg3 harg3 arg4 harg4 arg5 harg5 arg6 harg6 arg7 harg7 arg8 harg8 arg9 harg9 arg10 harg10 hc0 hc1 x0 x1 x2 x3 x4
      = k0_pay4 x0 x1 k0_pay1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg6.read_unread,
    harg7.read_unread, harg8.read_unread, harg9.read_unread, harg10.read_unread,
    View.readCov_unit_zero (S := S512x1024) _ hz, View.readCov_unit_zero (S := S512x16) _ hz,
    View.ld_unit_zero (S := S512x1024) hz, View.ld_unit_zero (S := S1024x1024) hz, View.ld_unit_zero (S := S1x1024) hz,
    View.ld_unit_zero (S := S16x1024) hz, View.ld_unit_zero (S := S1024x16) hz, View.ld_unit_zero (S := S512x16) hz]

/-- The first step of the shared axis leaves 0 + x·Aᵀ in the low-rank accumulator. -/
theorem accA_A (hc0 : cond0_0 i) (hc1 : ¬cond0_1 i)
    (x0 : Vec F S512x1024 .f32) (x1 : Vec F S1024x1024 .f32) (x2 : Vec F S1x1024 .f32) (x3 : Vec F S16x1024 .f32)
    (x4 : Vec F S1024x16 .f32) :
    sout0_A_1 c i arg3 harg3 arg4 harg4 arg5 harg5 arg6 harg6 arg7 harg7 arg8 harg8 arg9 harg9 arg10 harg10 hc0 hc1 x0 x1 x2 x3 x4
      = k0_pay5 x0 x3 k0_pay2 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x16) hz, View.readCov_unit_zero (S := S512x16) _ hz]
  simp only [View.readAt_eq_ld, harg3.read_unread, harg4.read_unread, harg5.read_unread, harg6.read_unread,
    harg7.read_unread, harg8.read_unread, harg9.read_unread, harg10.read_unread,
    View.readCov_unit_zero (S := S512x1024) _ hz, View.readCov_unit_zero (S := S512x16) _ hz,
    View.ld_unit_zero (S := S512x1024) hz, View.ld_unit_zero (S := S1024x1024) hz, View.ld_unit_zero (S := S1x1024) hz,
    View.ld_unit_zero (S := S16x1024) hz, View.ld_unit_zero (S := S1024x16) hz, View.ld_unit_zero (S := S512x16) hz]

/-- A middle step leaves acc + x·wᵀ in the base accumulator. -/
theorem acc_B (hc0 : ¬cond0_0 i) (hc1 : ¬cond0_1 i)
    (x0 : Vec F S512x1024 .f32) (x1 : Vec F S1024x1024 .f32) (x2 : Vec F S1x1024 .f32) (x3 : Vec F S16x1024 .f32)
    (x4 : Vec F S1024x16 .f32) (xs0 : Vec F S512x1024 .f32) (xs1 : Vec F S512x16 .f32) :
    sout0_B_0 c i arg3 harg3 arg4 harg4 arg5 harg5 arg6 harg6 arg7 harg7 arg8 harg8 arg9 harg9 arg10 harg10 hc0 hc1 x0 x1 x2 x3 x4 xs0 xs1
      = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread,
    harg7.read_unread, harg8.read_unread, harg9.read_unread, harg10.read_unread,
    View.readCov_unit_zero (S := S512x1024) _ hz, View.readCov_unit_zero (S := S512x16) _ hz,
    View.ld_unit_zero (S := S512x1024) hz, View.ld_unit_zero (S := S1024x1024) hz, View.ld_unit_zero (S := S1x1024) hz,
    View.ld_unit_zero (S := S16x1024) hz, View.ld_unit_zero (S := S1024x16) hz, View.ld_unit_zero (S := S512x16) hz]

/-- A middle step leaves accA + x·Aᵀ in the low-rank accumulator. -/
theorem accA_B (hc0 : ¬cond0_0 i) (hc1 : ¬cond0_1 i)
    (x0 : Vec F S512x1024 .f32) (x1 : Vec F S1024x1024 .f32) (x2 : Vec F S1x1024 .f32) (x3 : Vec F S16x1024 .f32)
    (x4 : Vec F S1024x16 .f32) (xs0 : Vec F S512x1024 .f32) (xs1 : Vec F S512x16 .f32) :
    sout0_B_1 c i arg3 harg3 arg4 harg4 arg5 harg5 arg6 harg6 arg7 harg7 arg8 harg8 arg9 harg9 arg10 harg10 hc0 hc1 x0 x1 x2 x3 x4 xs0 xs1
      = k0_pay5 x0 x3 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread,
    harg7.read_unread, harg8.read_unread, harg9.read_unread, harg10.read_unread,
    View.readCov_unit_zero (S := S512x1024) _ hz, View.readCov_unit_zero (S := S512x16) _ hz,
    View.ld_unit_zero (S := S512x1024) hz, View.ld_unit_zero (S := S1024x1024) hz, View.ld_unit_zero (S := S1x1024) hz,
    View.ld_unit_zero (S := S16x1024) hz, View.ld_unit_zero (S := S1024x16) hz, View.ld_unit_zero (S := S512x16) hz]

/-- The last step leaves acc + x·wᵀ in the base accumulator. -/
theorem acc_C (hc0 : ¬cond0_0 i) (hc1 : cond0_1 i)
    (x0 : Vec F S512x1024 .f32) (x1 : Vec F S1024x1024 .f32) (x2 : Vec F S1x1024 .f32) (x3 : Vec F S16x1024 .f32)
    (x4 : Vec F S1024x16 .f32) (xs0 : Vec F S512x1024 .f32) (xs1 : Vec F S512x16 .f32) :
    sout0_C_0 c i arg3 harg3 arg4 harg4 arg5 harg5 arg6 harg6 arg7 harg7 arg8 harg8 arg9 harg9 arg10 harg10 hc0 hc1 x0 x1 x2 x3 x4 xs0 xs1
      = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread,
    harg7.read_unread, harg8.read_unread, harg9.read_unread, harg10.read_unread,
    View.readCov_unit_zero (S := S512x1024) _ hz, View.readCov_unit_zero (S := S512x16) _ hz,
    View.ld_unit_zero (S := S512x1024) hz, View.ld_unit_zero (S := S1024x1024) hz, View.ld_unit_zero (S := S1x1024) hz,
    View.ld_unit_zero (S := S16x1024) hz, View.ld_unit_zero (S := S1024x16) hz, View.ld_unit_zero (S := S512x16) hz]

/-- The last step leaves accA + x·Aᵀ in the low-rank accumulator. -/
theorem accA_C (hc0 : ¬cond0_0 i) (hc1 : cond0_1 i)
    (x0 : Vec F S512x1024 .f32) (x1 : Vec F S1024x1024 .f32) (x2 : Vec F S1x1024 .f32) (x3 : Vec F S16x1024 .f32)
    (x4 : Vec F S1024x16 .f32) (xs0 : Vec F S512x1024 .f32) (xs1 : Vec F S512x16 .f32) :
    sout0_C_1 c i arg3 harg3 arg4 harg4 arg5 harg5 arg6 harg6 arg7 harg7 arg8 harg8 arg9 harg9 arg10 harg10 hc0 hc1 x0 x1 x2 x3 x4 xs0 xs1
      = k0_pay5 x0 x3 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread,
    harg7.read_unread, harg8.read_unread, harg9.read_unread, harg10.read_unread,
    View.readCov_unit_zero (S := S512x1024) _ hz, View.readCov_unit_zero (S := S512x16) _ hz,
    View.ld_unit_zero (S := S512x1024) hz, View.ld_unit_zero (S := S1024x1024) hz, View.ld_unit_zero (S := S1x1024) hz,
    View.ld_unit_zero (S := S16x1024) hz, View.ld_unit_zero (S := S1024x16) hz, View.ld_unit_zero (S := S512x16) hz]

/-- The last step writes the output block from the two updated accumulators, the bias row and the block of B. -/
theorem out_C (hc0 : ¬cond0_0 i) (hc1 : cond0_1 i)
    (x0 : Vec F S512x1024 .f32) (x1 : Vec F S1024x1024 .f32) (x2 : Vec F S1x1024 .f32) (x3 : Vec F S16x1024 .f32)
    (x4 : Vec F S1024x16 .f32) (xs0 : Vec F S512x1024 .f32) (xs1 : Vec F S512x16 .f32) :
    out0_C_5 c i arg3 harg3 arg4 harg4 arg5 harg5 arg6 harg6 arg7 harg7 arg8 harg8 arg9 harg9 arg10 harg10 hc0 hc1 x0 x1 x2 x3 x4 xs0 xs1
      = k0_pay6 x4 (k0_pay5 x0 x3 xs1) (k0_pay4 x0 x1 xs0) x2 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread,
    harg7.read_unread, harg8.read_unread, harg9.read_unread, harg10.read_unread,
    View.readCov_unit_zero (S := S512x1024) _ hz, View.readCov_unit_zero (S := S512x16) _ hz,
    View.ld_unit_zero (S := S512x1024) hz, View.ld_unit_zero (S := S1024x1024) hz, View.ld_unit_zero (S := S1x1024) hz,
    View.ld_unit_zero (S := S16x1024) hz, View.ld_unit_zero (S := S1024x16) hz, View.ld_unit_zero (S := S512x16) hz]

end Cert.KernelIdeal.Pieces

end
-- ==== Proof.LibDotRows.lean ====
/-
  A product of two arrays of rows, read at one entry.

  For dimension numbers that contract the left operand's axis 1 with the right operand's axis 1, keep the left
  operand's axis 0 and the right operand's axis 0, and batch nothing — the product  l · wᵀ  of an [n × K] array with a
  [c × K] array — the operand indices at result entry (r, v) and contraction position k are (r, k) and (v, k). So both
  the accumulate-into-zero `tpu.matmul` and the host's `dot_general` are, at the ideal values, the entry's plain sum
  ∑ q < K, l (r, q) · w (v, q)  over the shared axis: the same extended real whatever the number of rows of either
  operand. This identifies a product computed a block of the right operand's rows at a time with the whole product.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {n K c : Nat}

/-- Dimension numbers of a rows-by-rows product [n, K] × [c, K] → [n, c]: contract left axis 1 with right axis 1,
    result rows from the left operand's rows, result columns from the right operand's rows, no batch axis. -/
structure RowsRows (d : DotDims ⟨2, ![n, K]⟩ ⟨2, ![c, K]⟩ ⟨2, ![n, c]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![n, K]⟩ ⟨2, ![c, K]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsRows.rank_contr (h : RowsRows d) : d.contr.rank = 1 := by rw [d.rank_contr, h.lc]; rfl

/-- The contracted axis has the shared length K. -/
theorem RowsRows.size_contr (h : RowsRows d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsRows.lhs_row (h : RowsRows d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsRows.lhs_col (h : RowsRows d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the result's column: its axis 0 is kept, and comes after the left operand's one kept
    axis among the result's axes. -/
theorem RowsRows.rhs_row (h : RowsRows d) (j : (⟨2, ![n, c]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The right operand's column is the contraction position. -/
theorem RowsRows.rhs_col (h : RowsRows d) (j : (⟨2, ![n, c]⟩ : Shape).Idx) (k : d.contr.Idx) :
    (d.rhsIdx j k 1).val = (k ⟨0, by rw [h.rank_contr]; exact Nat.one_pos⟩).val :=
  d.rhsIdx_val_of_single h.rc j k

/-- The contraction's sum, re-indexed by the shared axis: ∑ q < K, l (r, q) · w (v, q). -/
theorem RowsRows.sum_eq (h : RowsRows d) (l : (⟨2, ![n, K]⟩ : Shape).Idx → EReal) (w : (⟨2, ![c, K]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 (j 1) q) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (result column, q)
  have e2 : d.rhsIdx j ((contrEquiv1 d K h.rank_contr h.size_contr).symm q) = ix2 (j 1) q := by
    funext a
    match a with
    | ⟨0, _⟩ => exact Fin.ext (h.rhs_row j _)
    | ⟨1, _⟩ => exact Fin.ext ((h.rhs_col j _).trans hk)
  exact congrArg₂ (· * ·) (congrArg l e1) (congrArg w e2)

/-- `tpu.matmul` into the zero accumulator, at an entry, at the ideal values (operands of any float formats). -/
theorem RowsRows.matmul_zero_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    matmul (F := Ideal) d prec l w (constant ⟨2, ![n, c]⟩ .f32 0x00000000#32) j
      = ∑ q : Fin K, l (ix2 (j 0) q) * w (ix2 (j 1) q) :=
  (Ideal.matmul_constant_zero_apply d prec l w j).trans (h.sum_eq l w j)

/-- The host's `dot_general`, at an entry, at the ideal values. -/
theorem RowsRows.dotGeneral_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    Host.dotGeneral (F := Ideal) d prec l w j = ∑ q : Fin K, l (ix2 (j 0) q) * w (ix2 (j 1) q) :=
  (Ideal.dotGeneral_apply d prec .single l w j).trans (h.sum_eq l w j)

end Cert.Lib.DotRows

end
-- ==== Proof.Payloads.lean ====
/-
  The body's arithmetic read at one entry, at the ideal values.

  With every float an extended real and every change of float format the identity:
  * the accumulator update at entry (p, q) is  acc (p, q) + ∑ k < 1024, x (p, k) · w (q, k)  — the block of x against
    a block of rows of the weight (or of A), a rows-by-rows product into zero added to the old contents;
  * the output block at (p, q) is  (acc (p, q) + bias (0, q)) + 1 · ∑ j < 16, accA (p, j) · B (q, j).
-/
import proofs.«163985_j67130338836603_1_alg».proof.Proof.Gen.KernelIdeal.Skeleton
import proofs.«163985_j67130338836603_1_alg».proof.Proof.LibDotRows
import Idealize.ShloMosaic.Lib.Pipeline.Value
import Idealize.ShloMosaic.Lib.ValueLayout

noncomputable section

open scoped BigOperators
open Idealize.ShloMosaic Idealize.ShloMosaic.ValueIdx

namespace Cert.KernelIdeal.Payloads

open Cert.KernelIdeal Cert.KernelIdeal.Gen Cert.Lib.DotRows

/-- The three products of the body contract the second axis of both operands. -/
theorem rows_xw : RowsRows (n := 512) (K := 1024) (c := 1024) dot_S512x1024_S1024x1024_S512x1024_1_1_0_0_n_n :=
  ⟨rfl, rfl, rfl, rfl, rfl, rfl⟩
theorem rows_xa : RowsRows (n := 512) (K := 1024) (c := 16) dot_S512x1024_S16x1024_S512x16_1_1_0_0_n_n :=
  ⟨rfl, rfl, rfl, rfl, rfl, rfl⟩
theorem rows_ab : RowsRows (n := 512) (K := 16) (c := 1024) dot_S512x16_S1024x16_S512x1024_1_1_0_0_n_n :=
  ⟨rfl, rfl, rfl, rfl, rfl, rfl⟩

/-- The zero block the reset stores is the real number zero at every entry. -/
theorem zero_acc_apply (j : S512x1024.Idx) : k0_pay1 (F := Ideal) j = 0 := by
  unfold k0_pay1
  rw [shapeCast_self]
  exact Ideal.ofBits_zero_f32
theorem zero_accA_apply (j : S512x16.Idx) : k0_pay2 (F := Ideal) j = 0 := by
  unfold k0_pay2
  rw [shapeCast_self]
  exact Ideal.ofBits_zero_f32

/-- The base accumulator's update at an entry. -/
theorem acc_apply (x : Vec Ideal S512x1024 .f32) (w : Vec Ideal S1024x1024 .f32) (acc : Vec Ideal S512x1024 .f32)
    (p : Fin 512) (q : Fin 1024) :
    k0_pay4 (F := Ideal) x w acc (ix2 p q) = acc (ix2 p q) + ∑ k : Fin 1024, x (ix2 p k) * w (ix2 q k) := by
  unfold k0_pay4 k0_pay3
  simp only [shapeCast_self]
  refine congrArg (acc (ix2 p q) + ·) ?_
  exact rows_xw.matmul_zero_apply none _ _ (ix2 p q)

/-- The low-rank accumulator's update at an entry. -/
theorem accA_apply (x : Vec Ideal S512x1024 .f32) (a : Vec Ideal S16x1024 .f32) (acc : Vec Ideal S512x16 .f32)
    (p : Fin 512) (j : Fin 16) :
    k0_pay5 (F := Ideal) x a acc (ix2 p j) = acc (ix2 p j) + ∑ k : Fin 1024, x (ix2 p k) * a (ix2 j k) := by
  unfold k0_pay5 k0_pay3
  simp only [shapeCast_self]
  refine congrArg (acc (ix2 p j) + ·) ?_
  exact rows_xa.matmul_zero_apply none _ _ (ix2 p j)

/-- The output block at an entry. -/
theorem out_apply (b : Vec Ideal S1024x16 .f32) (accA : Vec Ideal S512x16 .f32) (acc : Vec Ideal S512x1024 .f32)
    (bias : Vec Ideal S1x1024 .f32) (p : Fin 512) (q : Fin 1024) :
    k0_pay6 (F := Ideal) b accA acc bias (ix2 p q)
      = (acc (ix2 p q) + bias (ix2 (0 : Fin 1) q))
        + Ideal.ofBits .f32 0x3F800000#32 * ∑ j : Fin 16, accA (ix2 p j) * b (ix2 q j) := by
  unfold k0_pay6
  simp only [shapeCast_self]
  refine congrArg₂ (· + ·) (congrArg (acc (ix2 p q) + ·) ?_) (congrArg (Ideal.ofBits .f32 0x3F800000#32 * ·) ?_)
  · exact broadcastTo_1b_ab_apply bias _ p q
  · exact rows_ab.matmul_zero_apply none _ _ (ix2 p q)

end Cert.KernelIdeal.Payloads

end
-- ==== Proof.LibSumBlocks.lean ====
/-
  Two facts about finite sums used to read an accumulator that is filled block by block.

  * A sum over nb·sz entries is the sum over the nb blocks of the sums over each block's sz entries (entry sz·j + r is
    entry r of block j).
  * An accumulator that is reset at every P-th step and otherwise adds to what the step before left — o t = S t when
    P divides t, o t = o (t - 1) + S t otherwise — holds after step t the sum of S over the steps since the last reset.
-/
import Mathlib.Data.EReal.Basic
import Mathlib.Algebra.BigOperators.Fin
import Mathlib.Algebra.BigOperators.Intervals

namespace Cert.SumLib

open scoped BigOperators

/-- A sum over nb·sz entries, block by block: entry sz·j + r is entry r of block j. -/
theorem sum_blocks {M : Type} [AddCommMonoid M] (nb sz : ℕ) (f : Fin (nb * sz) → M)
    (hb : ∀ (j : Fin nb) (r : Fin sz), sz * j.val + r.val < nb * sz) :
    ∑ n : Fin (nb * sz), f n = ∑ j : Fin nb, ∑ r : Fin sz, f ⟨sz * j.val + r.val, hb j r⟩ := by
  rw [← (finProdFinEquiv (m := nb) (n := sz)).sum_comp f, Fintype.sum_prod_type]
  refine Finset.sum_congr rfl fun j _ => Finset.sum_congr rfl fun r _ => congrArg f (Fin.ext ?_)
  simp [finProdFinEquiv, Nat.add_comm]

/-- The sum over 8192 rows as the sum over 16 blocks of 512 rows. -/
theorem sum_16x512 {M : Type} [AddCommMonoid M] (f : Fin 8192 → M) :
    ∑ n : Fin 8192, f n = ∑ j : Fin 16, ∑ r : Fin 512, f ⟨512 * j.val + r.val, by have := j.isLt; have := r.isLt; omega⟩ :=
  sum_blocks 16 512 f fun j r => by have := j.isLt; have := r.isLt; omega

/-- The sum over 8192 rows as the sum over 8 blocks of 1024 rows. -/
theorem sum_8x1024 {M : Type} [AddCommMonoid M] (f : Fin 8192 → M) :
    ∑ n : Fin 8192, f n = ∑ j : Fin 8, ∑ r : Fin 1024, f ⟨1024 * j.val + r.val, by have := j.isLt; have := r.isLt; omega⟩ :=
  sum_blocks 8 1024 f fun j r => by have := j.isLt; have := r.isLt; omega

/-- One step back inside a block: when P does not divide t, the step before has the remainder one less. -/
theorem pred_mod (P : ℕ) (hP : 0 < P) (t : ℕ) (hz : t % P ≠ 0) : (t - 1) % P = t % P - 1 := by
  have hdm := Nat.div_add_mod t P
  have hlt := Nat.mod_lt t hP
  have e : t - 1 = (t % P - 1) + P * (t / P) := by omega
  rw [e, Nat.add_mul_mod_self_left, Nat.mod_eq_of_lt (by omega)]

/-- The closed form below a bound, by induction on the step: a reset step holds its own term; any other step adds
    its term to the sum the step before holds, which has the same block start. -/
theorem acc_closed_aux {M : Type} [AddCommMonoid M] (P N : ℕ) (hP : 0 < P) (o S : ℕ → M)
    (h0 : ∀ t, t < N → t % P = 0 → o t = S t) (h1 : ∀ t, t < N → t % P ≠ 0 → o t = o (t - 1) + S t) (t : ℕ) (ht : t < N) :
    o t = ∑ j ∈ Finset.range (t % P + 1), S (t - t % P + j) := by
  induction t using Nat.strong_induction_on with
  | _ t ih =>
    by_cases hz : t % P = 0
    · rw [h0 t ht hz, hz]; simp
    · have hle : t % P ≤ t := Nat.mod_le t P
      have hm := pred_mod P hP t hz
      have e1 : t % P - 1 + 1 = t % P := by omega
      have e2 : t - 1 - (t % P - 1) = t - t % P := by omega
      have e3 : t - t % P + t % P = t := Nat.sub_add_cancel hle
      rw [h1 t ht hz, ih (t - 1) (by omega) (by omega), hm, Finset.sum_range_succ _ (t % P), e1, e2, e3]

/-- The accumulator after step t: the sum of the steps' terms since the last reset (steps t - t % P … t). -/
theorem acc_closed {M : Type} [AddCommMonoid M] (P : ℕ) (hP : 0 < P) (o S : ℕ → M) (h0 : ∀ t, t % P = 0 → o t = S t)
    (h1 : ∀ t, t % P ≠ 0 → o t = o (t - 1) + S t) (t : ℕ) :
    o t = ∑ j ∈ Finset.range (t % P + 1), S (t - t % P + j) :=
  acc_closed_aux P (t + 1) hP o S (fun t _ => h0 t) (fun t _ => h1 t) t (Nat.lt_succ_self t)

/-- The same for a run of steps bounded by N (the accumulator is only defined below N). -/
theorem acc_closed_lt {M : Type} [AddCommMonoid M] (P N : ℕ) (hP : 0 < P) (o S : ℕ → M) (h0 : ∀ t, t < N → t % P = 0 → o t = S t)
    (h1 : ∀ t, t < N → t % P ≠ 0 → o t = o (t - 1) + S t) (t : ℕ) (ht : t < N) :
    o t = ∑ j ∈ Finset.range (t % P + 1), S (t - t % P + j) :=
  acc_closed_aux P N hP o S h0 h1 t ht

end Cert.SumLib
-- ==== Proof.Spec.lean ====
/-
  The low-rank-adapted linear layer, as one function of its argument arrays.

  For x2 : [16384, 4096] (the flattened rows), W : [4096, 4096], b2 : [1, 4096], A : [16, 4096] and B : [4096, 16] the
  result at row r and column o is

      (∑ k, x2 (r, k) · W (o, k)  +  b2 (0, o))  +  1 · ∑ j < 16, (∑ k, x2 (r, k) · A (j, k)) · B (o, j)

  over the extended reals.  A product of a row with a row over the 4096 shared entries is the sum of its four parts
  over the blocks of 1024 entries, which is how an accumulator filled one block of the shared axis at a time holds it.
-/
import Idealize.ShloMosaic.PureOps.Ideal.Laws
import Idealize.ShloMosaic.Lib.ValueIdx
import proofs.«163985_j67130338836603_1_alg».proof.Proof.LibSumBlocks

noncomputable section

open scoped BigOperators

namespace Cert.Lora

open Idealize.ShloMosaic Idealize.ShloMosaic.ValueIdx

/-- Entry (r, k) of a matrix, and zero outside it. -/
def at2 {n K : Nat} (x : (⟨2, ![n, K]⟩ : Shape).Idx → EReal) (r k : ℕ) : EReal :=
  if h : r < n ∧ k < K then x (ix2 ⟨r, h.1⟩ ⟨k, h.2⟩) else 0

theorem at2_eq {n K : Nat} (x : (⟨2, ![n, K]⟩ : Shape).Idx → EReal) (r : Fin n) (k : Fin K) :
    at2 x r.val k.val = x (ix2 r k) := by
  unfold at2; rw [dif_pos ⟨r.isLt, k.isLt⟩]

theorem at2_of_lt {n K : Nat} (x : (⟨2, ![n, K]⟩ : Shape).Idx → EReal) (r k : ℕ) (hr : r < n) (hk : k < K) :
    at2 x r k = x (ix2 ⟨r, hr⟩ ⟨k, hk⟩) := by
  unfold at2; rw [dif_pos ⟨hr, hk⟩]

/-- The product of row r of x with row o of w over all the shared entries. -/
def rowDot {n c K : Nat} (x : (⟨2, ![n, K]⟩ : Shape).Idx → EReal) (w : (⟨2, ![c, K]⟩ : Shape).Idx → EReal)
    (r : Fin n) (o : Fin c) : EReal :=
  ∑ k : Fin K, x (ix2 r k) * w (ix2 o k)

/-- The part of that product over the shared entries 1024·kb … 1024·kb + 1023. -/
def part {n c : Nat} (x : (⟨2, ![n, 4096]⟩ : Shape).Idx → EReal) (w : (⟨2, ![c, 4096]⟩ : Shape).Idx → EReal)
    (r o kb : ℕ) : EReal :=
  ∑ q : Fin 1024, at2 x r (1024 * kb + q.val) * at2 w o (1024 * kb + q.val)

/-- A row product over 4096 shared entries is the sum of its four parts. -/
theorem rowDot_eq_parts {n c : Nat} (x : (⟨2, ![n, 4096]⟩ : Shape).Idx → EReal)
    (w : (⟨2, ![c, 4096]⟩ : Shape).Idx → EReal) (r : Fin n) (o : Fin c) :
    rowDot x w r o = ∑ kb ∈ Finset.range 4, part x w r.val o.val kb := by
  unfold rowDot
  rw [Cert.SumLib.sum_blocks 4 1024 (fun k : Fin 4096 => x (ix2 r k) * w (ix2 o k))
    (fun j q => by have := j.isLt; have := q.isLt; omega), Finset.sum_range]
  refine Finset.sum_congr rfl fun j _ => Finset.sum_congr rfl fun q _ => ?_
  have hk : 1024 * j.val + q.val < 4096 := by have := j.isLt; have := q.isLt; omega
  rw [at2_of_lt x _ _ r.isLt hk, at2_of_lt w _ _ o.isLt hk]

/-- The float word 1.0 at the ideal values. -/
abbrev one : EReal := Ideal.ofBits .f32 0x3F800000#32

/-- The layer's result over the flattened rows. -/
def G (X : (⟨2, ![16384, 4096]⟩ : Shape).Idx → EReal) (W : (⟨2, ![4096, 4096]⟩ : Shape).Idx → EReal)
    (b : (⟨2, ![1, 4096]⟩ : Shape).Idx → EReal) (A : (⟨2, ![16, 4096]⟩ : Shape).Idx → EReal)
    (B : (⟨2, ![4096, 16]⟩ : Shape).Idx → EReal) : (⟨2, ![16384, 4096]⟩ : Shape).Idx → EReal :=
  fun i => (rowDot X W (i 0) (i 1) + b (ix2 (0 : Fin 1) (i 1)))
    + one * ∑ j : Fin 16, rowDot X A (i 0) j * B (ix2 (i 1) j)

/-- The layer's result over the batch of sequences: entry (s, t, o). -/
def G3 (x : (⟨3, ![4, 4096, 4096]⟩ : Shape).Idx → EReal) (W : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal) : (⟨3, ![4, 4096, 4096]⟩ : Shape).Idx → EReal :=
  fun i => ((∑ k : Fin 4096, x (ix3 (i 0) (i 1) k) * W (ix2 (i 2) k)) + b (ix1 (i 2)))
    + one * ∑ j : Fin 16, (∑ k : Fin 4096, x (ix3 (i 0) (i 1) k) * A (ix2 j k)) * B (ix2 (i 2) j)

end Cert.Lora

end
-- ==== Proof.Acc.lean ====
/-
  The two accumulators across the steps of the shared axis, and the block written at the last step.

  Point t of the grid is (t / 16, (t / 4) % 4, t % 4): the block of 512 rows, the block of 1024 output columns, the
  block of 1024 shared entries.  Reading the windows' blocks off the arrays, one step adds to the base accumulator at
  (p, q) the part of the product of row 512·(t/16) + p of x2 with row 1024·((t/4)%4) + q of W over shared block t % 4,
  and to the low-rank accumulator at (p, j) the same part of the product with row j of A.  The accumulators are reset
  at the steps t % 4 = 0, so after step t they hold the parts of the shared blocks 0 … t % 4; after the last step
  (t % 4 = 3) that is the whole product over the 4096 shared entries, and the block written there is the layer's
  function G at the block's rows and columns.
-/
import proofs.«163985_j67130338836603_1_alg».proof.Proof.Pieces
import proofs.«163985_j67130338836603_1_alg».proof.Proof.Payloads
import proofs.«163985_j67130338836603_1_alg».proof.Proof.Spec

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Lora

variable (m : (ℓ : Loc nD τ sig) → Buf (Elt Ideal) ℓ)

/-! ## The arrays the region finds, and the windows' blocks -/

/-- The flattened rows, the weight, the bias row, and the two low-rank factors, as the region finds them. -/
abbrev X2 (c : Dev nD) : (⟨2, ![16384, 4096]⟩ : Shape).Idx → EReal := V m c main_v0
abbrev Wt (c : Dev nD) : (⟨2, ![4096, 4096]⟩ : Shape).Idx → EReal := V m c main_arg1
abbrev B2 (c : Dev nD) : (⟨2, ![1, 4096]⟩ : Shape).Idx → EReal := V m c main_v1
abbrev At (c : Dev nD) : (⟨2, ![16, 4096]⟩ : Shape).Idx → EReal := V m c main_arg3
abbrev Bt (c : Dev nD) : (⟨2, ![4096, 16]⟩ : Shape).Idx → EReal := V m c main_arg4

/-- The five input blocks at a point. -/
abbrev xblk (c : Dev nD) (t : Fin cfg0.N) : Vec Ideal S512x1024 .f32 := iblk m c 0 t
abbrev wblk (c : Dev nD) (t : Fin cfg0.N) : Vec Ideal S1024x1024 .f32 := iblk m c 1 t
abbrev bblk (c : Dev nD) (t : Fin cfg0.N) : Vec Ideal S1x1024 .f32 := iblk m c 2 t
abbrev ablk (c : Dev nD) (t : Fin cfg0.N) : Vec Ideal S16x1024 .f32 := iblk m c 3 t
abbrev Bblk (c : Dev nD) (t : Fin cfg0.N) : Vec Ideal S1024x16 .f32 := iblk m c 4 t

/-- Which block each window is on at point t. -/
theorem idx_facts : ∀ t : Fin cfg0.N,
    win0_0.index t (0 : Fin 2) = t.val / 16 ∧ win0_0.index t (1 : Fin 2) = t.val % 4
    ∧ win0_1.index t (0 : Fin 2) = (t.val / 4) % 4 ∧ win0_1.index t (1 : Fin 2) = t.val % 4
    ∧ win0_2.index t (0 : Fin 2) = 0 ∧ win0_2.index t (1 : Fin 2) = (t.val / 4) % 4
    ∧ win0_3.index t (0 : Fin 2) = 0 ∧ win0_3.index t (1 : Fin 2) = t.val % 4
    ∧ win0_4.index t (0 : Fin 2) = (t.val / 4) % 4 ∧ win0_4.index t (1 : Fin 2) = 0
    ∧ win0_5.index t (0 : Fin 2) = t.val / 16 ∧ win0_5.index t (1 : Fin 2) = (t.val / 4) % 4 :=
  (by decide +kernel : ∀ t : Fin grid0.N,
    win0_0.index t (0 : Fin 2) = t.val / 16 ∧ win0_0.index t (1 : Fin 2) = t.val % 4
    ∧ win0_1.index t (0 : Fin 2) = (t.val / 4) % 4 ∧ win0_1.index t (1 : Fin 2) = t.val % 4
    ∧ win0_2.index t (0 : Fin 2) = 0 ∧ win0_2.index t (1 : Fin 2) = (t.val / 4) % 4
    ∧ win0_3.index t (0 : Fin 2) = 0 ∧ win0_3.index t (1 : Fin 2) = t.val % 4
    ∧ win0_4.index t (0 : Fin 2) = (t.val / 4) % 4 ∧ win0_4.index t (1 : Fin 2) = 0
    ∧ win0_5.index t (0 : Fin 2) = t.val / 16 ∧ win0_5.index t (1 : Fin 2) = (t.val / 4) % 4)

theorem t_lt (t : Fin cfg0.N) : t.val < 512 := lt_of_lt_of_eq t.isLt N_0

/-- The block of x2 at point t is rows 512·(t/16) …, shared entries 1024·(t%4) …. -/
theorem xblk_apply (c : Dev nD) (t : Fin cfg0.N) (p : Fin 512) (k : Fin 1024) :
    xblk m c t (ix2 p k) = at2 (X2 m c) (512 * (t.val / 16) + p.val) (1024 * (t.val % 4) + k.val) := by
  have hi := idx_facts t
  have ht := t_lt t
  rw [at2_of_lt _ _ _ (by omega) (by omega)]
  show iblk m c 0 t (ix2 p k) = _
  unfold iblk
  rw [View.read_apply]
  show V m c main_v0 _ = V m c main_v0 _
  refine congrArg _ (funext fun a => Fin.ext ?_)
  match a with
  | ⟨0, _⟩ => show win0_0.index t 0 * 512 + 1 * p.val = 512 * (t.val / 16) + p.val; rw [hi.1]; omega
  | ⟨1, _⟩ => show win0_0.index t 1 * 1024 + 1 * k.val = 1024 * (t.val % 4) + k.val; rw [hi.2.1]; omega

/-- The block of W at point t is rows 1024·((t/4)%4) …, shared entries 1024·(t%4) …. -/
theorem wblk_apply (c : Dev nD) (t : Fin cfg0.N) (q : Fin 1024) (k : Fin 1024) :
    wblk m c t (ix2 q k) = at2 (Wt m c) (1024 * ((t.val / 4) % 4) + q.val) (1024 * (t.val % 4) + k.val) := by
  have hi := idx_facts t
  have ht := t_lt t
  rw [at2_of_lt _ _ _ (by omega) (by omega)]
  show iblk m c 1 t (ix2 q k) = _
  unfold iblk
  rw [View.read_apply]
  show V m c main_arg1 _ = V m c main_arg1 _
  refine congrArg _ (funext fun a => Fin.ext ?_)
  match a with
  | ⟨0, _⟩ => show win0_1.index t 0 * 1024 + 1 * q.val = 1024 * ((t.val / 4) % 4) + q.val; rw [hi.2.2.1]; omega
  | ⟨1, _⟩ => show win0_1.index t 1 * 1024 + 1 * k.val = 1024 * (t.val % 4) + k.val; rw [hi.2.2.2.1]; omega

/-- The block of the bias row at point t is columns 1024·((t/4)%4) …. -/
theorem bblk_apply (c : Dev nD) (t : Fin cfg0.N) (q : Fin 1024) :
    bblk m c t (ix2 (0 : Fin 1) q)
      = B2 m c (ix2 (0 : Fin 1) ⟨1024 * ((t.val / 4) % 4) + q.val, by have := q.isLt; omega⟩) := by
  have hi := idx_facts t
  show iblk m c 2 t (ix2 (0 : Fin 1) q) = _
  unfold iblk
  rw [View.read_apply]
  show V m c main_v1 _ = V m c main_v1 _
  refine congrArg _ (funext fun a => Fin.ext ?_)
  match a with
  | ⟨0, _⟩ => show win0_2.index t 0 * 1 + 1 * 0 = 0; rw [hi.2.2.2.2.1]
  | ⟨1, _⟩ => show win0_2.index t 1 * 1024 + 1 * q.val = 1024 * ((t.val / 4) % 4) + q.val; rw [hi.2.2.2.2.2.1]; omega

/-- The block of A at point t is all 16 rows, shared entries 1024·(t%4) …. -/
theorem ablk_apply (c : Dev nD) (t : Fin cfg0.N) (j : Fin 16) (k : Fin 1024) :
    ablk m c t (ix2 j k) = at2 (At m c) j.val (1024 * (t.val % 4) + k.val) := by
  have hi := idx_facts t
  have ht := t_lt t
  rw [at2_of_lt _ _ _ j.isLt (by omega)]
  show iblk m c 3 t (ix2 j k) = _
  unfold iblk
  rw [View.read_apply]
  show V m c main_arg3 _ = V m c main_arg3 _
  refine congrArg _ (funext fun a => Fin.ext ?_)
  match a with
  | ⟨0, _⟩ => show win0_3.index t 0 * 16 + 1 * j.val = j.val; rw [hi.2.2.2.2.2.2.1]; omega
  | ⟨1, _⟩ => show win0_3.index t 1 * 1024 + 1 * k.val = 1024 * (t.val % 4) + k.val; rw [hi.2.2.2.2.2.2.2.1]; omega

/-- The block of B at point t is rows 1024·((t/4)%4) …, all 16 columns. -/
theorem Bblk_apply (c : Dev nD) (t : Fin cfg0.N) (q : Fin 1024) (j : Fin 16) :
    Bblk m c t (ix2 q j)
      = Bt m c (ix2 ⟨1024 * ((t.val / 4) % 4) + q.val, by have := q.isLt; omega⟩ j) := by
  have hi := idx_facts t
  show iblk m c 4 t (ix2 q j) = _
  unfold iblk
  rw [View.read_apply]
  show V m c main_arg4 _ = V m c main_arg4 _
  refine congrArg _ (funext fun a => Fin.ext ?_)
  match a with
  | ⟨0, _⟩ => show win0_4.index t 0 * 1024 + 1 * q.val = 1024 * ((t.val / 4) % 4) + q.val; rw [hi.2.2.2.2.2.2.2.2.1]; omega
  | ⟨1, _⟩ => show win0_4.index t 1 * 16 + 1 * j.val = j.val; rw [hi.2.2.2.2.2.2.2.2.2.1]; omega

/-! ## One step of each accumulator -/

/-- At the first step of the shared axis the base accumulator is updated from zero. -/
theorem acc_first (c : Dev nD) (t : Fin cfg0.N) (h0 : t.val % 4 = 0) :
    (outsAt0 m c t.val t.isLt).2.1 = k0_pay4 (xblk m c t) (wblk m c t) (k0_pay1 (F := Ideal)) := by
  have h1 : ¬t.val % 4 = 3 := by omega
  rw [outsAt0_A m c t h0 h1]; dsimp only
  exact Pieces.acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

/-- At every other step it is updated from what the step before left. -/
theorem acc_next (c : Dev nD) (t : Fin cfg0.N) (h0 : ¬t.val % 4 = 0) :
    (outsAt0 m c t.val t.isLt).2.1
      = k0_pay4 (xblk m c t) (wblk m c t) (outsAt0 m c (t.val - 1) (Nat.lt_of_le_of_lt (Nat.sub_le _ _) t.isLt)).2.1 := by
  by_cases h1 : t.val % 4 = 3
  · rw [outsAt0_C m c t h0 h1]; dsimp only
    exact Pieces.acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]; dsimp only
    exact Pieces.acc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-- At the first step of the shared axis the low-rank accumulator is updated from zero. -/
theorem accA_first (c : Dev nD) (t : Fin cfg0.N) (h0 : t.val % 4 = 0) :
    (outsAt0 m c t.val t.isLt).2.2 = k0_pay5 (xblk m c t) (ablk m c t) (k0_pay2 (F := Ideal)) := by
  have h1 : ¬t.val % 4 = 3 := by omega
  rw [outsAt0_A m c t h0 h1]; dsimp only
  exact Pieces.accA_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

/-- At every other step it is updated from what the step before left. -/
theorem accA_next (c : Dev nD) (t : Fin cfg0.N) (h0 : ¬t.val % 4 = 0) :
    (outsAt0 m c t.val t.isLt).2.2
      = k0_pay5 (xblk m c t) (ablk m c t) (outsAt0 m c (t.val - 1) (Nat.lt_of_le_of_lt (Nat.sub_le _ _) t.isLt)).2.2 := by
  by_cases h1 : t.val % 4 = 3
  · rw [outsAt0_C m c t h0 h1]; dsimp only
    exact Pieces.accA_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]; dsimp only
    exact Pieces.accA_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-- At the last step of the shared axis the output block is written from the two accumulators as that step leaves them. -/
theorem out_last (c : Dev nD) (t : Fin cfg0.N) (h1 : t.val % 4 = 3) :
    (outsAt0 m c t.val t.isLt).1
      = k0_pay6 (Bblk m c t) (outsAt0 m c t.val t.isLt).2.2 (outsAt0 m c t.val t.isLt).2.1 (bblk m c t) := by
  have h0 : ¬t.val % 4 = 0 := by omega
  rw [outsAt0_C m c t h0 h1]; dsimp only
  rw [Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    Pieces.acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    Pieces.accA_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2]

end Cert.KernelIdeal.Acc

end
-- ==== Proof.Closed.lean ====
/-
  The accumulators in closed form, and the block the last step writes.

  By induction over the steps: after step n the base accumulator holds, at (p, q), the parts over the shared blocks
  0 … n % 4 of the product of row 512·(n/16) + p of x2 with row 1024·((n/4)%4) + q of W (a reset step starts the sum,
  every other step adds its own part to the sum of the step before, whose rows and columns are the same).  The same
  holds for the low-rank accumulator with the rows of A.  At n % 4 = 3 the four parts are the whole row product, so the
  block written there is G of the arrays at the block's rows and columns.
-/
import proofs.«163985_j67130338836603_1_alg».proof.Proof.Acc

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Lora

variable (m : (ℓ : Loc nD τ sig) → Buf (Elt Ideal) ℓ)

/-- What one step adds to the base accumulator: the part of the row product over the step's shared block. -/
theorem xw_sum (c : Dev nD) (t : Fin cfg0.N) (p : Fin 512) (q : Fin 1024) :
    ∑ k : Fin 1024, xblk m c t (ix2 p k) * wblk m c t (ix2 q k)
      = part (X2 m c) (Wt m c) (512 * (t.val / 16) + p.val) (1024 * ((t.val / 4) % 4) + q.val) (t.val % 4) := by
  unfold part
  refine Finset.sum_congr rfl fun k _ => ?_
  rw [xblk_apply, wblk_apply]

/-- What one step adds to the low-rank accumulator. -/
theorem xa_sum (c : Dev nD) (t : Fin cfg0.N) (p : Fin 512) (j : Fin 16) :
    ∑ k : Fin 1024, xblk m c t (ix2 p k) * ablk m c t (ix2 j k)
      = part (X2 m c) (At m c) (512 * (t.val / 16) + p.val) j.val (t.val % 4) := by
  unfold part
  refine Finset.sum_congr rfl fun k _ => ?_
  rw [xblk_apply, ablk_apply]

/-- The base accumulator after step n: the parts over the shared blocks 0 … n % 4. -/
theorem acc_closed (c : Dev nD) (p : Fin 512) (q : Fin 1024) : ∀ (n : ℕ) (hn : n < cfg0.N),
    (outsAt0 m c n hn).2.1 (ix2 p q)
      = ∑ j ∈ Finset.range (n % 4 + 1), part (X2 m c) (Wt m c) (512 * (n / 16) + p.val) (1024 * ((n / 4) % 4) + q.val) j
  | 0, hn => by
    refine (congrFun (acc_first m c ⟨0, hn⟩ rfl) (ix2 p q)).trans ?_
    rw [Payloads.acc_apply, Payloads.zero_acc_apply, zero_add, xw_sum]
    exact (Finset.sum_range_one _).symm
  | n + 1, hn => by
    by_cases h0 : (n + 1) % 4 = 0
    · refine (congrFun (acc_first m c ⟨n + 1, hn⟩ h0) (ix2 p q)).trans ?_
      rw [Payloads.acc_apply, Payloads.zero_acc_apply, zero_add, xw_sum]
      show part _ _ (512 * ((n + 1) / 16) + p.val) (1024 * (((n + 1) / 4) % 4) + q.val) ((n + 1) % 4) = _
      rw [h0]
      exact (Finset.sum_range_one _).symm
    · refine (congrFun (acc_next m c ⟨n + 1, hn⟩ h0) (ix2 p q)).trans ?_
      rw [Payloads.acc_apply, xw_sum]
      show (outsAt0 m c n (Nat.lt_of_succ_lt hn)).2.1 (ix2 p q)
        + part _ _ (512 * ((n + 1) / 16) + p.val) (1024 * (((n + 1) / 4) % 4) + q.val) ((n + 1) % 4) = _
      rw [acc_closed c p q n (Nat.lt_of_succ_lt hn)]
      have e1 : (n + 1) / 16 = n / 16 := by omega
      have e2 : ((n + 1) / 4) % 4 = (n / 4) % 4 := by omega
      have e3 : (n + 1) % 4 = n % 4 + 1 := by omega
      rw [e1, e2, e3]
      exact (Finset.sum_range_succ _ (n % 4 + 1)).symm

/-- The low-rank accumulator after step n. -/
theorem accA_closed (c : Dev nD) (p : Fin 512) (j : Fin 16) : ∀ (n : ℕ) (hn : n < cfg0.N),
    (outsAt0 m c n hn).2.2 (ix2 p j)
      = ∑ b ∈ Finset.range (n % 4 + 1), part (X2 m c) (At m c) (512 * (n / 16) + p.val) j.val b
  | 0, hn => by
    refine (congrFun (accA_first m c ⟨0, hn⟩ rfl) (ix2 p j)).trans ?_
    rw [Payloads.accA_apply, Payloads.zero_accA_apply, zero_add, xa_sum]
    exact (Finset.sum_range_one _).symm
  | n + 1, hn => by
    by_cases h0 : (n + 1) % 4 = 0
    · refine (congrFun (accA_first m c ⟨n + 1, hn⟩ h0) (ix2 p j)).trans ?_
      rw [Payloads.accA_apply, Payloads.zero_accA_apply, zero_add, xa_sum]
      show part _ _ (512 * ((n + 1) / 16) + p.val) j.val ((n + 1) % 4) = _
      rw [h0]
      exact (Finset.sum_range_one _).symm
    · refine (congrFun (accA_next m c ⟨n + 1, hn⟩ h0) (ix2 p j)).trans ?_
      rw [Payloads.accA_apply, xa_sum]
      show (outsAt0 m c n (Nat.lt_of_succ_lt hn)).2.2 (ix2 p j)
        + part _ _ (512 * ((n + 1) / 16) + p.val) j.val ((n + 1) % 4) = _
      rw [accA_closed c p j n (Nat.lt_of_succ_lt hn)]
      have e1 : (n + 1) / 16 = n / 16 := by omega
      have e3 : (n + 1) % 4 = n % 4 + 1 := by omega
      rw [e1, e3]
      exact (Finset.sum_range_succ _ (n % 4 + 1)).symm

/-- The row of x2 and the row of W (the output column) that entry (p, q) of point t's block stands for. -/
abbrev rowAt (t : Fin cfg0.N) (p : Fin 512) : Fin 16384 :=
  ⟨512 * (t.val / 16) + p.val, by have := t_lt t; have := p.isLt; omega⟩
abbrev colAt (t : Fin cfg0.N) (q : Fin 1024) : Fin 4096 :=
  ⟨1024 * ((t.val / 4) % 4) + q.val, by have := q.isLt; omega⟩

/-- After the last step of the shared axis the base accumulator holds the whole row product. -/
theorem acc_full (c : Dev nD) (t : Fin cfg0.N) (h1 : t.val % 4 = 3) (p : Fin 512) (q : Fin 1024) :
    (outsAt0 m c t.val t.isLt).2.1 (ix2 p q) = rowDot (X2 m c) (Wt m c) (rowAt t p) (colAt t q) := by
  rw [acc_closed m c p q t.val t.isLt, h1, rowDot_eq_parts]

/-- After the last step of the shared axis the low-rank accumulator holds the whole product with A's row. -/
theorem accA_full (c : Dev nD) (t : Fin cfg0.N) (h1 : t.val % 4 = 3) (p : Fin 512) (j : Fin 16) :
    (outsAt0 m c t.val t.isLt).2.2 (ix2 p j) = rowDot (X2 m c) (At m c) (rowAt t p) j := by
  rw [accA_closed m c p j t.val t.isLt, h1, rowDot_eq_parts]

/-- The block written at the last step is G at the block's rows and columns. -/
theorem out_block (c : Dev nD) (t : Fin cfg0.N) (h1 : t.val % 4 = 3) (p : Fin 512) (q : Fin 1024) :
    (outsAt0 m c t.val t.isLt).1 (ix2 p q)
      = G (X2 m c) (Wt m c) (B2 m c) (At m c) (Bt m c) (ix2 (rowAt t p) (colAt t q)) := by
  rw [out_last m c t h1, Payloads.out_apply, acc_full m c t h1, bblk_apply]
  simp only [accA_full m c t h1, Bblk_apply]
  rfl

end Cert.KernelIdeal.Acc

end
-- ==== Proof.Unflatten.lean ====
/-
  The flattened form against the batched form.

  Row 4096·s + t of the flattened array x2 is row t of sequence s of x, and the one-row array b2 is the bias vector, so
  G over the flattened arrays, read back through the cast to [4, 4096, 4096], is G3 over x and the bias: both casts
  keep the row-major position.
-/
import proofs.«163985_j67130338836603_1_alg».proof.Proof.Spec
import Idealize.ShloMosaic.Lib.Pipeline.Value
import Idealize.ShloMosaic.Lib.ValueLayout

noncomputable section

open scoped BigOperators

namespace Cert.Lora

open Idealize.ShloMosaic Idealize.ShloMosaic.ValueIdx

theorem G_unflatten (x : (⟨3, ![4, 4096, 4096]⟩ : Shape).Idx → EReal) (W : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal)
    (h1 : (⟨3, ![4, 4096, 4096]⟩ : Shape).ShapeCasts ⟨2, ![16384, 4096]⟩)
    (h2 : (⟨1, ![4096]⟩ : Shape).ShapeCasts ⟨2, ![1, 4096]⟩)
    (h3 : (⟨2, ![16384, 4096]⟩ : Shape).ShapeCasts ⟨3, ![4, 4096, 4096]⟩) :
    shapeCast ⟨3, ![4, 4096, 4096]⟩
        (G (shapeCast ⟨2, ![16384, 4096]⟩ x h1) W (shapeCast ⟨2, ![1, 4096]⟩ b h2) A B) h3
      = G3 x W b A B := by
  funext i
  obtain ⟨s, t, o, rfl⟩ : ∃ (s : Fin 4) (t : Fin 4096) (o : Fin 4096), i = ix3 s t o := ⟨i 0, i 1, i 2, eq_ix3 i⟩
  have hr : 4096 * s.val + t.val < 16384 := by have := s.isLt; have := t.isLt; omega
  rw [shapeCast_apply _ h3 (ix3 s t o) (ix2 (⟨4096 * s.val + t.val, hr⟩ : Fin 16384) o) (by
    rw [Shape.rowMajor_val_two, Shape.rowMajor_val_three]
    show (4096 * s.val + t.val) * 4096 + o.val = (s.val * 4096 + t.val) * 4096 + o.val
    omega)]
  have hx : ∀ k : Fin 4096,
      shapeCast ⟨2, ![16384, 4096]⟩ x h1 (ix2 (⟨4096 * s.val + t.val, hr⟩ : Fin 16384) k) = x (ix3 s t k) := fun k =>
    shapeCast_apply x h1 _ _ (by
      rw [Shape.rowMajor_val_three, Shape.rowMajor_val_two]
      show (s.val * 4096 + t.val) * 4096 + k.val = (4096 * s.val + t.val) * 4096 + k.val
      omega)
  have hb : shapeCast ⟨2, ![1, 4096]⟩ b h2 (ix2 (0 : Fin 1) o) = b (ix1 o) := shapeCast_a_1a_apply b h2 0 o
  show (rowDot (shapeCast ⟨2, ![16384, 4096]⟩ x h1) W (⟨4096 * s.val + t.val, hr⟩ : Fin 16384) o
        + shapeCast ⟨2, ![1, 4096]⟩ b h2 (ix2 (0 : Fin 1) o))
      + one * ∑ j : Fin 16, rowDot (shapeCast ⟨2, ![16384, 4096]⟩ x h1) A (⟨4096 * s.val + t.val, hr⟩ : Fin 16384) j * B (ix2 o j)
    = ((∑ k : Fin 4096, x (ix3 s t k) * W (ix2 o k)) + b (ix1 o))
      + one * ∑ j : Fin 16, (∑ k : Fin 4096, x (ix3 s t k) * A (ix2 j k)) * B (ix2 o j)
  unfold rowDot
  simp only [hx, hb]

end Cert.Lora

end
-- ==== Proof.Final.lean ====
/-
  From the blocks to the result array, and the run.

  The output window writes its block back at the last step of the shared axis (t % 4 = 3), and block (t/16, (t/4)%4)
  covers rows 512·(t/16) … and columns 1024·((t/4)%4) …; every entry (r, o) of the [16384, 4096] array lies in the
  block of the point 16·(r/512) + 4·(o/1024) + 3.  So the array ends at G of the arrays the region found, which are the
  flattened x, the weight, the bias as one row, A and B; the cast after the region turns it into G3 of the arguments.
-/
import proofs.«163985_j67130338836603_1_alg».proof.Proof.Closed
import proofs.«163985_j67130338836603_1_alg».proof.Proof.Unflatten
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Lora Cert.KernelIdeal.Acc

variable (m : (ℓ : Loc nD τ sig) → Buf (Elt Ideal) ℓ) (ρ : Dev nD → PrngReg)

/-- The layer's function of the arrays the region finds. -/
abbrev Gk (c : Dev nD) : (⟨2, ![16384, 4096]⟩ : Shape).Idx → EReal := G (X2 m c) (Wt m c) (B2 m c) (At m c) (Bt m c)

/-- What a writing point writes back is its block of G. -/
theorem flushed_eq (c : Dev nD) (t : Fin cfg0.N) (hf : (cfg0.win 5).flush t = true) :
    (dats m 0 c).flushed 5 t = ((cfg0.win 5).blk t).view.read (Elt Ideal) (Gk m c) := by
  have h1 : t.val % 4 = 3 := (flush0_5 t).mp hf
  have hi := idx_facts t
  show (cfg0.win 5).cut (grid0.coords t) ((dats m 0 c).after 5 t) = _
  rw [after0_5]
  funext j
  show (outsAt0 m c t.val t.isLt).1 j = Gk m c (((cfg0.win 5).blk t).view.emb j)
  refine ((congrArg (outsAt0 m c t.val t.isLt).1 (eq_ix2 j)).trans (out_block m c t h1 (j 0) (j 1))).trans ?_
  refine congrArg (Gk m c) (funext fun a => Fin.ext ?_)
  match a with
  | ⟨0, _⟩ => show 512 * (t.val / 16) + (j 0).val = win0_5.index t 0 * 512 + 1 * (j 0).val; rw [hi.2.2.2.2.2.2.2.2.2.2.1]; omega
  | ⟨1, _⟩ => show 1024 * ((t.val / 4) % 4) + (j 1).val = win0_5.index t 1 * 1024 + 1 * (j 1).val; rw [hi.2.2.2.2.2.2.2.2.2.2.2]; omega

/-- An entry of the array is in point t's block iff each coordinate is in the block's range. -/
theorem mem_blk (t : Fin cfg0.N) (i : S16384x4096.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v2).slice (win0_5.rect t)).set ↔ _
  rw [View.set_slice_whole, Rect.mem_set_unit]
  exact Iff.rfl

/-- Every entry is in the block of a writing point. -/
theorem cover (i : S16384x4096.Idx) :
    ∃ t : Fin cfg0.N, (cfg0.win 5).flush t = true ∧ i ∈ ((cfg0.win 5).blk t).view.set := by
  have h0 : (i 0).val < 16384 := (i 0).isLt
  have h1 : (i 1).val < 4096 := (i 1).isLt
  have hN : cfg0.N = 512 := N_0
  have hlt : 16 * ((i 0).val / 512) + 4 * ((i 1).val / 1024) + 3 < cfg0.N := by rw [hN]; omega
  refine ⟨⟨16 * ((i 0).val / 512) + 4 * ((i 1).val / 1024) + 3, hlt⟩, (flush0_5 _).mpr (by show (16 * ((i 0).val / 512) + 4 * ((i 1).val / 1024) + 3) % 4 = 3; omega), ?_⟩
  rw [mem_blk]
  have hi := idx_facts ⟨16 * ((i 0).val / 512) + 4 * ((i 1).val / 1024) + 3, hlt⟩
  have e0 := hi.2.2.2.2.2.2.2.2.2.2.1
  have e1 := hi.2.2.2.2.2.2.2.2.2.2.2
  intro a
  match a with
  | ⟨0, _⟩ =>
    show win0_5.index _ 0 * 512 ≤ (i 0).val ∧ (i 0).val < win0_5.index _ 0 * 512 + 512
    rw [e0]; show (16 * ((i 0).val / 512) + 4 * ((i 1).val / 1024) + 3) / 16 * 512 ≤ (i 0).val ∧ (i 0).val < (16 * ((i 0).val / 512) + 4 * ((i 1).val / 1024) + 3) / 16 * 512 + 512
    omega
  | ⟨1, _⟩ =>
    show win0_5.index _ 1 * 1024 ≤ (i 1).val ∧ (i 1).val < win0_5.index _ 1 * 1024 + 1024
    rw [e1]; show (16 * ((i 0).val / 512) + 4 * ((i 1).val / 1024) + 3) / 4 % 4 * 1024 ≤ (i 1).val ∧ (i 1).val < (16 * ((i 0).val / 512) + 4 * ((i 1).val / 1024) + 3) / 4 % 4 * 1024 + 1024
    omega

/-- The output array after the region is G of the arrays the region found. -/
theorem final (c : Dev nD) : (dats m 0 c).arrAt 5 cfg0.N = Gk m c :=
  (dats m 0 c).arrAt_eq_of_cover 5 (Gk m c) (flushed_eq m c) cover

/-- The region finds the flattened x … -/
theorem X2_eq (c : Dev nD) :
    X2 m c = shapeCast S16384x4096 (m ((c : Thread nD τ).loc main_arg0)) shapeCasts_S4x4096x4096_S16384x4096 := by
  show StableHlo.after hostOps0 (fun b => m (c, b)) (Proc.devRef .tc main_v0) = _
  after_results
  rfl

/-- … and the bias as one row. -/
theorem B2_eq (c : Dev nD) :
    B2 m c = shapeCast S1x4096 (m ((c : Thread nD τ).loc main_arg2)) shapeCasts_S4096_S1x4096 := by
  show StableHlo.after hostOps0 (fun b => m (c, b)) (Proc.devRef .tc main_v1) = _
  after_results
  rfl

/-- The result after the cast that follows the region: G3 of the argument arrays. -/
theorem tail_eq (c : Dev nD) :
    Pipeline.afterTail₀ cfgs (dats m) 0 (V0 m) [hostOps1] c main_v3
      = G3 (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = Gk m c :=
    (Pipeline.withArrays_arr spec0 launch0.win.arr_inj c _ _ 5).trans (final m c)
  show shapeCast S4x4096x4096 (Pipeline.withArrays (cfgs 0).spec c (V0 m c) (fun w => (dats m 0 c).arrAt w (cfgs 0).N)
      (Proc.devRef .tc main_v2)) shapeCasts_S16384x4096_S4x4096x4096 = _
  rw [e]
  show shapeCast S4x4096x4096 (G (X2 m c) (Wt m c) (B2 m c) (At m c) (Bt m c)) shapeCasts_S16384x4096_S4x4096x4096 = _
  rw [X2_eq, B2_eq, show Wt m c = m ((c : Thread nD τ).loc main_arg1) from V_main_arg1 m c,
    show At m c = m ((c : Thread nD τ).loc main_arg3) from V_main_arg3 m c,
    show Bt m c = m ((c : Thread nD τ).loc main_arg4) from V_main_arg4 m c]
  exact G_unflatten _ _ _ _ _ _ _ _

/-- The run of the idealized kernel: the result at G3 of the arguments, the arguments unchanged. -/
theorem run : θ_run defs (onTc (τ := τ) (main (F := Ideal))) ⟨m, fun _ => 0, ρ⟩ (fun r => ∀ c : Dev nD,
      r.2.mem ((c.tc : Thread nD τ).loc main_v3)
        = G3 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Final

end
-- ==== Proof.Ref.lean ====
/-
  The reference's result, read entry by entry, is the layer's function G3 of the argument arrays: at (s, t, o)

      (∑ k, x (s, t, k) · W (o, k) + bias (o))  +  1 · ∑ j < 16, (∑ k, x (s, t, k) · A (j, k)) · B (o, j).

  Each host operation is read at an index by the generated stage lemmas; what is left is that the operand indices
  those lemmas name are the coordinates written above.
-/
import proofs.«163985_j67130338836603_1_alg».proof.Proof.Gen.ReferenceIdeal.Read
import proofs.«163985_j67130338836603_1_alg».proof.Proof.Spec

noncomputable section

open scoped BigOperators
open Idealize.ShloMosaic Idealize.ShloMosaic.ValueIdx

namespace Cert.ReferenceIdeal.RefValue

open Cert.ReferenceIdeal Cert.ReferenceIdeal.Read Cert.Lora

theorem lidx0 (i : S4x4096x4096.Idx) (k : Fin 4096) : lidx_main_v0 i k = ix3 (i 0) (i 1) k :=
  funext fun a => match a with | ⟨0, _⟩ => rfl | ⟨1, _⟩ => rfl | ⟨2, _⟩ => rfl
theorem ridx0 (i : S4x4096x4096.Idx) (k : Fin 4096) : ridx_main_v0 i k = ix2 (i 2) k :=
  funext fun a => match a with | ⟨0, _⟩ => rfl | ⟨1, _⟩ => rfl
theorem lidx4 (i : S4x4096x16.Idx) (k : Fin 4096) : lidx_main_v4 i k = ix3 (i 0) (i 1) k :=
  funext fun a => match a with | ⟨0, _⟩ => rfl | ⟨1, _⟩ => rfl | ⟨2, _⟩ => rfl
theorem ridx4 (i : S4x4096x16.Idx) (k : Fin 4096) : ridx_main_v4 i k = ix2 (i 2) k :=
  funext fun a => match a with | ⟨0, _⟩ => rfl | ⟨1, _⟩ => rfl
theorem ridx5 (i : S4x4096x4096.Idx) (j : Fin 16) : ridx_main_v5 i j = ix2 (i 2) j :=
  funext fun a => match a with | ⟨0, _⟩ => rfl | ⟨1, _⟩ => rfl
theorem bidx (i : S4x4096x4096.Idx) : idx_main_v1 (idx_main_v2 i) = ix1 (i 2) :=
  funext fun a => match a with | ⟨0, _⟩ => rfl

/-- The reference's last stage is G3 of the arguments. -/
theorem result_eq (x0 : (⟨S4x4096x4096, .f32⟩ : BufTy).Contents (Elt Ideal)) (x1 : (⟨S4096x4096, .f32⟩ : BufTy).Contents (Elt Ideal))
    (x2 : (⟨S4096, .f32⟩ : BufTy).Contents (Elt Ideal)) (x3 : (⟨S16x4096, .f32⟩ : BufTy).Contents (Elt Ideal))
    (x4 : (⟨S4096x16, .f32⟩ : BufTy).Contents (Elt Ideal)) :
    val_main_v8 (F := Ideal) x0 x1 x2 x3 x4 = G3 x0 x1 x2 x3 x4 := by
  funext i
  rw [val_main_v8_apply, val_main_v3_apply, val_main_v7_apply, val_main_v0_apply, val_main_v2_apply, val_main_v1_apply,
    val_main_v6_apply, val_main_cst_apply, val_main_v5_apply]
  simp only [val_main_v4_apply, lidx0, ridx0, lidx4, ridx4, ridx5, bidx]
  rfl

end Cert.ReferenceIdeal.RefValue

end
-- ==== Proof.lean ====
/-
  The kernel computes the low-rank-adapted linear layer  x·Wᵀ + bias + 1·((x·Aᵀ)·Bᵀ)  over the rows of x flattened to
  [16384, 4096], a block of 512 rows by 1024 output columns at a time, accumulating both x·Wᵀ and x·Aᵀ over four blocks
  of 1024 shared entries and writing the output block at the last of them; the reference computes the same three
  products whole.  Over the extended reals a sum over 4096 shared entries is the sum of its four block sums (addition
  is commutative and associative there, infinities included), the accumulators start from zero, and both sides
  group the final sum as (base + bias) + 1·lora with the same word for 1, so both results are the function G3 of the
  arguments entry by entry.  No finiteness of the inputs is used.

  The three frames: the two kernels' are the frame runs; the reference's is its run with the result dropped.
  The idealization changed no operation, so there is nothing to preserve.
-/
import proofs.«163985_j67130338836603_1_alg».proof.Defs
import proofs.«163985_j67130338836603_1_alg».proof.Proof.Gen.Kernel
import proofs.«163985_j67130338836603_1_alg».proof.Proof.Gen.Kernel.Skeleton
import proofs.«163985_j67130338836603_1_alg».proof.Proof.Gen.Kernel.Launch
import proofs.«163985_j67130338836603_1_alg».proof.Proof.Gen.Kernel.Points
import proofs.«163985_j67130338836603_1_alg».proof.Proof.Gen.Kernel.Frame
import proofs.«163985_j67130338836603_1_alg».proof.Proof.Gen.KernelIdeal
import proofs.«163985_j67130338836603_1_alg».proof.Proof.Gen.KernelIdeal.Skeleton
import proofs.«163985_j67130338836603_1_alg».proof.Proof.Gen.KernelIdeal.Launch
import proofs.«163985_j67130338836603_1_alg».proof.Proof.Gen.KernelIdeal.Points
import proofs.«163985_j67130338836603_1_alg».proof.Proof.Gen.KernelIdeal.Frame
import proofs.«163985_j67130338836603_1_alg».proof.Proof.Gen.ReferenceIdeal
import proofs.«163985_j67130338836603_1_alg».proof.Proof.Gen.ReferenceIdeal.Run
import proofs.«163985_j67130338836603_1_alg».proof.Proof.Gen.ReferenceIdeal.Read
import proofs.«163985_j67130338836603_1_alg».proof.Proof.Gen.Pre_finite_inputs
import proofs.«163985_j67130338836603_1_alg».proof.Proof.Final
import proofs.«163985_j67130338836603_1_alg».proof.Proof.Ref
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result at G3 of arguments that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
